-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one run of the kernel body leaves behind, as values.

  The body keeps a 1024 × 1024 accumulator in a scratch buffer across the grid's third axis. At every grid point it
  adds to the accumulator the product of the point's 1024 × 512 block of the left operand with its 512 × 1024 block of
  the right operand; at the first point of a run of eight (third coordinate 0) it first overwrites the accumulator
  with zeros; at the last point of a run (third coordinate 7) it then copies the accumulator to the output block.

  The body's run is recorded, case by case, as the list of stores it made into each buffer. This file reads those
  lists back: after the body the accumulator holds `step x y acc` — the one arithmetic term of the body, `acc + x · y`,
  with `acc` the zero block at a run's first point and what the previous point left otherwise — and at a run's last point
  the output block holds the same term. Nothing here depends on which arithmetic the values are read in.
-/
import proofs.«131610_j6502580486270_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

/-- The origin of a rank-2 buffer, as the stores and loads spell it. -/
theorem hz : (![0, 0] : Fin 2 → Nat) = fun _ => 0 := funext fun a => by fin_cases a <;> rfl

/-- The block of zeros a run's first point stores into the accumulator. -/
abbrev zeros : Vec F S1024x1024 .f32 := k0_pay1 (F := F)

/-- The body's arithmetic: the accumulator plus the product of the two input blocks. -/
abbrev step (x : Vec F S1024x512 .f32) (y : Vec F S512x1024 .f32) (acc : Vec F S1024x1024 .f32) : Vec F S1024x1024 .f32 :=
  k0_pay2 x y acc

/-- At a run's first point the accumulator is zeroed, read back, and left at `0 + x · y`. -/
theorem scratch_first (c : Dev nD) (i : grid0.Coords) (arg3 : Memref sig .tc .vmem S1024x512 .f32) (harg3 : arg3.IsWhole)
    (arg4 : Memref sig .tc .vmem S512x1024 .f32) (harg4 : arg4.IsWhole) (arg5 : Memref sig .tc .vmem S1024x1024 .f32) (harg5 : arg5.IsWhole)
    (arg6 : Memref sig .tc .vmem S1024x1024 .f32) (harg6 : arg6.IsWhole) (hc0 : cond0_0 i) (hc1 : ¬cond0_1 i)
    (x0 : Vec F S1024x512 .f32) (x1 : Vec F S512x1024 .f32) :
    sout0_A_0 c i arg3 harg3 arg4 harg4 arg5 harg5 arg6 harg6 hc0 hc1 x0 x1 = step x0 x1 (zeros (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz,
    View.ld_unit_zero (S := S512x1024) hz]

/-- At a point inside a run the accumulator, found at `acc`, is left at `acc + x · y`. -/
theorem scratch_inner (c : Dev nD) (i : grid0.Coords) (arg3 : Memref sig .tc .vmem S1024x512 .f32) (harg3 : arg3.IsWhole)
    (arg4 : Memref sig .tc .vmem S512x1024 .f32) (harg4 : arg4.IsWhole) (arg5 : Memref sig .tc .vmem S1024x1024 .f32) (harg5 : arg5.IsWhole)
    (arg6 : Memref sig .tc .vmem S1024x1024 .f32) (harg6 : arg6.IsWhole) (hc0 : ¬cond0_0 i) (hc1 : ¬cond0_1 i)
    (x0 : Vec F S1024x512 .f32) (x1 : Vec F S512x1024 .f32) (acc : Vec F S1024x1024 .f32) :
    sout0_B_0 c i arg3 harg3 arg4 harg4 arg5 harg5 arg6 harg6 hc0 hc1 x0 x1 acc = step x0 x1 acc := by
  unfold sout0_B_0
  rw [View.read_writes_eq_canon _ _ _ (scover0_B_0 c i arg3 harg3 arg4 harg4 arg5 harg5 arg6 harg6 hc0 hc1 x0 x1 acc)]
  unfold kernelRun0_B
  dsimp only
  sl_unfold_words
  rw [View.canon_unit_zero hz]
  simp only [View.readAt_eq_ld, harg3.read_unread, harg4.read_unread, harg6.read_unread, View.ld_unit_zero (S := S1024x512) hz,
    View.ld_unit_zero (S := S512x1024) hz, View.ld_unit_zero (S := S1024x1024) hz]

/-- At a run's last point the accumulator, found at `acc`, is likewise left at `acc + x · y`, -/
theorem scratch_last (c : Dev nD) (i : grid0.Coords) (arg3 : Memref sig .tc .vmem S1024x512 .f32) (harg3 : arg3.IsWhole)
    (arg4 : Memref sig .tc .vmem S512x1024 .f32) (harg4 : arg4.IsWhole) (arg5 : Memref sig .tc .vmem S1024x1024 .f32) (harg5 : arg5.IsWhole)
    (arg6 : Memref sig .tc .vmem S1024x1024 .f32) (harg6 : arg6.IsWhole) (hc0 : ¬cond0_0 i) (hc1 : cond0_1 i)
    (x0 : Vec F S1024x512 .f32) (x1 : Vec F S512x1024 .f32) (acc : Vec F S1024x1024 .f32) :
    sout0_C_0 c i arg3 harg3 arg4 harg4 arg5 harg5 arg6 harg6 hc0 hc1 x0 x1 acc = step x0 x1 acc := by
  unfold sout0_C_0
  rw [View.read_writes_eq_canon _ _ _ (scover0_C_0 c i arg3 harg3 arg4 harg4 arg5 harg5 arg6 harg6 hc0 hc1 x0 x1 acc)]
  unfold kernelRun0_C
  dsimp only
  sl_unfold_words
  rw [View.canon_unit_zero hz]
  simp only [View.readAt_eq_ld, harg3.read_unread, harg4.read_unread, harg6.read_unread, View.ld_unit_zero (S := S1024x512) hz,
    View.ld_unit_zero (S := S512x1024) hz, View.ld_unit_zero (S := S1024x1024) hz]

/-- and the output block is a copy of the accumulator as just updated. -/
theorem out_last (c : Dev nD) (i : grid0.Coords) (arg3 : Memref sig .tc .vmem S1024x512 .f32) (harg3 : arg3.IsWhole)
    (arg4 : Memref sig .tc .vmem S512x1024 .f32) (harg4 : arg4.IsWhole) (arg5 : Memref sig .tc .vmem S1024x1024 .f32) (harg5 : arg5.IsWhole)
    (arg6 : Memref sig .tc .vmem S1024x1024 .f32) (harg6 : arg6.IsWhole) (hc0 : ¬cond0_0 i) (hc1 : cond0_1 i)
    (x0 : Vec F S1024x512 .f32) (x1 : Vec F S512x1024 .f32) (acc : Vec F S1024x1024 .f32) :
    out0_C_2 c i arg3 harg3 arg4 harg4 arg5 harg5 arg6 harg6 hc0 hc1 x0 x1 acc = step x0 x1 acc := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  rw [View.canon_unit_zero hz]
  simp only [View.readAt_eq_ld, harg3.read_unread, harg4.read_unread, harg6.read_unread, View.ld_unit_zero (S := S1024x512) hz,
    View.ld_unit_zero (S := S512x1024) hz, View.ld_unit_zero (S := S1024x1024) hz, View.readCov_unit_zero (S := S1024x1024) _ hz]

end Cert.KernelIdeal.Pieces

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Step.lean ====
/-
  The body's arithmetic read at an index, at the ideal values.

  There a float is an extended real, a change of float format is the identity and the matrix unit's product into a zero
  accumulator is the exact sum of products. So the block of zeros is 0 at every index, and the body's one term —
  the accumulator plus the product of the 1024 × 512 block `x` and the 512 × 1024 block `w`, both first narrowed to
  bf16 — is, at index (p, q), the accumulator's entry plus the sum over the 512 positions j of x (p, j) · w (j, q).
-/
import proofs.«131610_j6502580486270_1_alg».proof.Proof.Pieces
import proofs.«131610_j6502580486270_1_alg».proof.Proof.LibPlainDot
import Idealize.ShloMosaic.PureOps.Ideal.Laws
import Idealize.ShloMosaic.Lib.ValueIdx
import Idealize.ShloMosaic.Lib.Pipeline.Value

noncomputable section

namespace Cert.KernelIdeal.Step

open Cert.KernelIdeal Cert.KernelIdeal.Gen Idealize.ShloMosaic Idealize.ShloMosaic.TcCoe Idealize.ShloMosaic.ValueIdx

/-- The block of zeros is 0 at every index. -/
theorem zeros_apply (y : S1024x1024.Idx) : (Pieces.zeros (F := Ideal) y : EReal) = 0 := by
  unfold Pieces.zeros k0_pay1
  simp only [shapeCast_self]
  exact Ideal.ofBits_zero_f32

/-- The body's term at (p, q): the accumulator there plus the sum over j of x (p, j) · w (j, q). -/
theorem step_apply (x : Vec Ideal S1024x512 .f32) (w : Vec Ideal S512x1024 .f32) (acc : Vec Ideal S1024x1024 .f32)
    (y : S1024x1024.Idx) :
    (Pieces.step (F := Ideal) x w acc y : EReal)
      = (acc y : EReal) + ∑ j : Fin 512, (x (ix2 (y 0) j) : EReal) * (w (ix2 j (y 1)) : EReal) := by
  unfold Pieces.step k0_pay2
  simp only [shapeCast_self]
  rw [addf_apply]
  congr 1
  exact PlainDot.matmul_zero_apply 1024 512 1024 none _ _ y

end Cert.KernelIdeal.Step

end
-- ==== Proof.BlockSum.lean ====
/-
  The product of two 4096 × 4096 arrays of extended reals, entry by entry, and the same entry summed in eight runs.

  Entry (r, q) of the product is the sum over the 4096 contraction positions k of X (r, k) · Y (k, q). Addition of
  extended reals is commutative and associative with unit 0, so the sum may be taken in any grouping: here in eight
  consecutive runs of 512 positions, starting from 0 — the order in which a kernel that walks the contraction axis in
  blocks of 512 accumulates it. No finiteness of the entries is used.

  Entries are named by natural-number coordinates (`entry`, zero outside the array), so that a block's position —
  a multiple of the block size plus an offset — is plain arithmetic.
-/
import Idealize.ShloMosaic.Lib.ValueIdx
import Mathlib.Algebra.BigOperators.Fin
import Mathlib.Algebra.BigOperators.Group.Finset.Basic
import Mathlib.Data.EReal.Basic

noncomputable section

namespace Cert.BlockSum

open Idealize.ShloMosaic Idealize.ShloMosaic.ValueIdx

/-- The arrays' shape. -/
abbrev Sq : Shape := ⟨2, ![4096, 4096]⟩

/-- Entry (a, b) of a 4096 × 4096 array, by natural-number coordinates; zero outside the array. -/
def entry (X : Sq.Idx → EReal) (a b : ℕ) : EReal :=
  if h : a < 4096 ∧ b < 4096 then X (ix2 ⟨a, h.1⟩ ⟨b, h.2⟩) else 0

theorem entry_ix2 (X : Sq.Idx → EReal) (a b : Fin 4096) : entry X a.val b.val = X (ix2 a b) := by
  unfold entry
  rw [dif_pos ⟨a.isLt, b.isLt⟩]

theorem entry_of_lt (X : Sq.Idx → EReal) (a b : ℕ) (ha : a < 4096) (hb : b < 4096) :
    entry X a b = X (ix2 ⟨a, ha⟩ ⟨b, hb⟩) := by
  unfold entry
  rw [dif_pos ⟨ha, hb⟩]

/-- The product X · Y, entry by entry. -/
def product (X Y : Sq.Idx → EReal) : Sq.Idx → EReal :=
  fun i => ∑ k : Fin 4096, X (ix2 (i 0) k) * Y (ix2 k (i 1))

/-- What run `s` of 512 contraction positions (512 s … 512 s + 511) contributes to entry (r, q). -/
def run (X Y : Sq.Idx → EReal) (r q s : ℕ) : EReal :=
  ∑ j : Fin 512, entry X r (512 * s + j.val) * entry Y (512 * s + j.val) q

/-- A sum over `m · n` consecutive naturals, taken as `n` consecutive runs of `m`. -/
theorem sum_runs {β : Type*} [AddCommMonoid β] (f : ℕ → β) (m : ℕ) :
    ∀ n : ℕ, ∑ s ∈ Finset.range n, ∑ j ∈ Finset.range m, f (m * s + j) = ∑ k ∈ Finset.range (m * n), f k
  | 0 => by simp
  | n + 1 => by
    rw [Finset.sum_range_succ, sum_runs f m n, Nat.mul_succ, Finset.sum_range_add]

/-- Zero plus the eight runs' contributions, in order, is the product's entry. -/
theorem zero_add_runs (X Y : Sq.Idx → EReal) (i : Sq.Idx) (r q : ℕ) (hr : (i 0).val = r) (hq : (i 1).val = q) :
    0 + ∑ s ∈ Finset.range 8, run X Y r q s = product X Y i := by
  subst hr hq
  rw [zero_add]
  unfold run product
  have h1 : ∀ s : ℕ, ∑ j : Fin 512, entry X (i 0).val (512 * s + j.val) * entry Y (512 * s + j.val) (i 1).val
      = ∑ j ∈ Finset.range 512, entry X (i 0).val (512 * s + j) * entry Y (512 * s + j) (i 1).val :=
    fun s => (Finset.sum_range fun j => entry X (i 0).val (512 * s + j) * entry Y (512 * s + j) (i 1).val).symm
  simp only [h1]
  rw [sum_runs (fun k => entry X (i 0).val k * entry Y k (i 1).val) 512 8, Finset.sum_range]
  refine Finset.sum_congr rfl fun k _ => ?_
  rw [entry_ix2 X (i 0) k, entry_ix2 Y k (i 1)]

end Cert.BlockSum

end
-- ==== Proof.Blocks.lean ====
/-
  Where the kernel's blocks sit in the arrays, at the ideal values.

  The grid is 4 × 4 × 8, walked with the last axis fastest: point `t` has coordinates (t / 32, t / 8 mod 4, t mod 8).
  There the left operand's 1024 × 512 block is at block row t / 32 and block column t mod 8, the right operand's
  512 × 1024 block at block row t mod 8 and block column t / 8 mod 4, and the output's 1024 × 1024 block at block row
  t / 32 and block column t / 8 mod 4. So entry (p, j) of the left block is entry (1024 (t / 32) + p, 512 (t mod 8) + j) of
  the left array, and entry (j, q) of the right block is entry (512 (t mod 8) + j, 1024 (t / 8 mod 4) + q) of the right array.
-/
import proofs.«131610_j6502580486270_1_alg».proof.Proof.Gen.KernelIdeal.Frame
import proofs.«131610_j6502580486270_1_alg».proof.Proof.BlockSum
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The block indices of the three windows at a grid point, decided over the 128 points. -/
theorem index_left : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem index_right : ∀ t : Fin cfg0.N, win0_1.index t (0 : Fin 2) = t.val % 8 ∧ win0_1.index t (1 : Fin 2) = t.val / 8 % 4 :=
  (by decide +kernel : ∀ t : Fin grid0.N, win0_1.index t (0 : Fin 2) = t.val % 8 ∧ win0_1.index t (1 : Fin 2) = t.val / 8 % 4)
theorem index_out : ∀ t : Fin cfg0.N, win0_2.index t (0 : Fin 2) = t.val / 32 ∧ win0_2.index t (1 : Fin 2) = t.val / 8 % 4 :=
  (by decide +kernel : ∀ t : Fin grid0.N, win0_2.index t (0 : Fin 2) = t.val / 32 ∧ win0_2.index t (1 : Fin 2) = t.val / 8 % 4)

/-- The left and right argument arrays on a device. -/
abbrev left (c : Dev nD) : BlockSum.Sq.Idx → EReal := m ((c : Thread nD τ).loc main_arg0)
abbrev right (c : Dev nD) : BlockSum.Sq.Idx → EReal := m ((c : Thread nD τ).loc main_arg1)

/-- The two input blocks at a point, at their literal shapes. -/
abbrev xblk (c : Dev nD) (t : Fin cfg0.N) : Vec Ideal S1024x512 .f32 := iblk m c 0 t
abbrev wblk (c : Dev nD) (t : Fin cfg0.N) : Vec Ideal S512x1024 .f32 := iblk m c 1 t

/-- An entry of the left block is the left array's entry at the block's offset. -/
theorem xblk_apply (c : Dev nD) (t : Fin cfg0.N) (p : Fin 1024) (j : Fin 512) :
    (xblk m c t (ix2 p j) : EReal) = BlockSum.entry (left m c) (1024 * (t.val / 32) + p.val) (512 * (t.val % 8) + j.val) := by
  have hN : t.val < 128 := lt_of_lt_of_eq t.isLt (show cfg0.N = 128 from N_0)
  have hp := p.isLt
  have hj := j.isLt
  rw [BlockSum.entry_of_lt _ _ _ (by omega) (by omega)]
  unfold xblk iblk
  rw [View.read_apply]
  show V m c main_arg0 _ = m ((c : Thread nD τ).loc main_arg0) _
  unfold V
  congr 1
  funext a
  apply Fin.ext
  match a with
  | ⟨0, _⟩ => show win0_0.index t (0 : Fin 2) * 1024 + 1 * p.val = 1024 * (t.val / 32) + p.val; rw [(index_left t).1]; omega
  | ⟨1, _⟩ => show win0_0.index t (1 : Fin 2) * 512 + 1 * j.val = 512 * (t.val % 8) + j.val; rw [(index_left t).2]; omega

/-- An entry of the right block is the right array's entry at the block's offset. -/
theorem wblk_apply (c : Dev nD) (t : Fin cfg0.N) (j : Fin 512) (q : Fin 1024) :
    (wblk m c t (ix2 j q) : EReal) = BlockSum.entry (right m c) (512 * (t.val % 8) + j.val) (1024 * (t.val / 8 % 4) + q.val) := by
  have hN : t.val < 128 := lt_of_lt_of_eq t.isLt (show cfg0.N = 128 from N_0)
  have hq := q.isLt
  have hj := j.isLt
  rw [BlockSum.entry_of_lt _ _ _ (by omega) (by omega)]
  unfold wblk iblk
  rw [View.read_apply]
  show V m c main_arg1 _ = m ((c : Thread nD τ).loc main_arg1) _
  unfold V
  congr 1
  funext a
  apply Fin.ext
  match a with
  | ⟨0, _⟩ => show win0_1.index t (0 : Fin 2) * 512 + 1 * j.val = 512 * (t.val % 8) + j.val; rw [(index_right t).1]; omega
  | ⟨1, _⟩ => show win0_1.index t (1 : Fin 2) * 1024 + 1 * q.val = 1024 * (t.val / 8 % 4) + q.val; rw [(index_right t).2]; omega

end Cert.KernelIdeal.Blocks

end
-- ==== Proof.Accum.lean ====
/-
  What the accumulator holds after each grid point, at the ideal values.

  Point `n` adds to the accumulator, at block entry (p, q), the sum over the 512 positions j of its left block's (p, j)
  times its right block's (j, q): in the arrays' own coordinates, run `n mod 8` of the contraction for row
  1024 (n / 32) + p and column 1024 (n / 8 mod 4) + q (`addend`). A run of eight points starts from the zero block, so after the
  point at offset `j` of its run the accumulator holds 0 plus the addends of the run's points so far, in order.
-/
import proofs.«131610_j6502580486270_1_alg».proof.Proof.Gen.KernelIdeal.Value
import proofs.«131610_j6502580486270_1_alg».proof.Proof.Pieces
import proofs.«131610_j6502580486270_1_alg».proof.Proof.Step
import proofs.«131610_j6502580486270_1_alg».proof.Proof.Blocks
import proofs.«131610_j6502580486270_1_alg».proof.Proof.BlockSum

noncomputable section

namespace Cert.KernelIdeal.Accum

open Cert.KernelIdeal Cert.KernelIdeal.Gen Idealize.ShloMosaic Idealize.ShloMosaic.TcCoe Idealize.ShloMosaic.ValueIdx
open Idealize.SL.Sem
open Cert.KernelIdeal.Blocks (left right xblk wblk)

variable (m : (ℓ : Loc nD τ sig) → Buf (Elt Ideal) ℓ)

/-- What point `n` adds to the accumulator at block entry `y`. -/
def addend (c : Dev nD) (n : ℕ) (y : S1024x1024.Idx) : EReal :=
  BlockSum.run (left m c) (right m c) (1024 * (n / 32) + (y 0).val) (1024 * (n / 8 % 4) + (y 1).val) (n % 8)

/-- The body's term on a point's two blocks: the accumulator plus the point's addend. -/
theorem step_blocks (c : Dev nD) (t : Fin cfg0.N) (acc : Vec Ideal S1024x1024 .f32) (y : S1024x1024.Idx) :
    (Pieces.step (F := Ideal) (xblk m c t) (wblk m c t) acc y : EReal) = (acc y : EReal) + addend m c t.val y := by
  rw [Step.step_apply]
  congr 1
  unfold addend BlockSum.run
  refine Finset.sum_congr rfl fun j _ => ?_
  exact congrArg₂ (· * ·) (Blocks.xblk_apply m c t (y 0) j) (Blocks.wblk_apply m c t j (y 1))

/-- At a run's first point the accumulator is left at zero plus the point's addend, whatever it held. -/
theorem first (c : Dev nD) (n : ℕ) (hb : n < cfg0.N) (h0 : n % 8 = 0) (acc : Vec Ideal S1024x1024 .f32) (y : S1024x1024.Idx) :
    (Value.scAt0_0 m c n hb acc y : EReal) = 0 + addend m c n y := by
  have h7 : ¬n % 8 = 7 := by omega
  unfold Value.scAt0_0
  rw [dif_pos h0, dif_neg h7]
  refine (congrFun (Pieces.scratch_first (F := Ideal) c (grid0.coords (⟨n, hb⟩ : Fin cfg0.N)) (ms0_0 (⟨n, hb⟩ : Fin cfg0.N)) (hs0_0 (⟨n, hb⟩ : Fin cfg0.N))
    (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
    ((hcond0_0 (⟨n, hb⟩ : Fin cfg0.N)).mpr h0) (fun h => h7 ((hcond0_1 (⟨n, hb⟩ : Fin cfg0.N)).mp h))
    (iblk m c 0 (⟨n, hb⟩ : Fin cfg0.N)) (iblk m c 1 (⟨n, hb⟩ : Fin cfg0.N))) y).trans ?_
  refine (step_blocks m c (⟨n, hb⟩ : Fin cfg0.N) (Pieces.zeros (F := Ideal)) y).trans ?_
  rw [Step.zeros_apply]

/-- At any other point of a run the accumulator, found at `acc`, is left at `acc` plus the point's addend. -/
theorem next (c : Dev nD) (n : ℕ) (hb : n < cfg0.N) (h0 : ¬n % 8 = 0) (acc : Vec Ideal S1024x1024 .f32) (y : S1024x1024.Idx) :
    (Value.scAt0_0 m c n hb acc y : EReal) = (acc y : EReal) + addend m c n y := by
  unfold Value.scAt0_0
  rw [dif_neg h0]
  by_cases h7 : n % 8 = 7
  · rw [dif_pos h7]
    refine (congrFun (Pieces.scratch_last (F := Ideal) c (grid0.coords (⟨n, hb⟩ : Fin cfg0.N)) (ms0_0 (⟨n, hb⟩ : Fin cfg0.N)) (hs0_0 (⟨n, hb⟩ : Fin cfg0.N))
      (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h7)
      (iblk m c 0 (⟨n, hb⟩ : Fin cfg0.N)) (iblk m c 1 (⟨n, hb⟩ : Fin cfg0.N)) acc) y).trans ?_
    exact step_blocks m c (⟨n, hb⟩ : Fin cfg0.N) acc y
  · rw [dif_neg h7]
    refine (congrFun (Pieces.scratch_inner (F := Ideal) c (grid0.coords (⟨n, hb⟩ : Fin cfg0.N)) (ms0_0 (⟨n, hb⟩ : Fin cfg0.N)) (hs0_0 (⟨n, hb⟩ : Fin cfg0.N))
      (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
      (fun h => h0 ((hcond0_0 (⟨n, hb⟩ : Fin cfg0.N)).mp h)) (fun h => h7 ((hcond0_1 (⟨n, hb⟩ : Fin cfg0.N)).mp h))
      (iblk m c 0 (⟨n, hb⟩ : Fin cfg0.N)) (iblk m c 1 (⟨n, hb⟩ : Fin cfg0.N)) acc) y).trans ?_
    exact step_blocks m c (⟨n, hb⟩ : Fin cfg0.N) acc y

/-- After point `t` the accumulator holds, at block entry `y`, zero plus the addends of its run's points up to `t`. -/
theorem scratch_after (c : Dev nD) (t : Fin cfg0.N) (y : S1024x1024.Idx) :
    ((outsAt0 m c t.val t.isLt).2 y : EReal)
      = 0 + ∑ s ∈ Finset.range (t.val % 8 + 1), addend m c (8 * (t.val / 8) + s) y := by
  rw [Value.soutsAt0_0_eq m c t]
  exact Pipeline.accAt_add_apply (ι := S1024x1024.Idx) (β := EReal)
    (fun n h => Value.scAt0_0 m c n h (VS0_0.read (Elt Ideal) VS0_0.junk)) (Value.scAt0_0 m c) (fun _ => 0) (addend m c)
    (8 * (t.val / 8)) 7
    (fun h i => first m c _ h (Nat.mul_mod_right 8 _) _ i)
    (fun n h acc i hlt hle => next m c n h (by omega) acc i)
    (t.val % 8) (by omega) _ y

/-- At a run's last point the output block is a copy of the accumulator as the point leaves it. -/
theorem out_eq_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  rw [Pieces.out_last, Pieces.scratch_last]

end Cert.KernelIdeal.Accum

end
-- ==== Proof.Product.lean ====
/-
  The idealized kernel's result array is the product of its two arguments, entry by entry.

  The output's 1024 × 1024 block at block row t / 32 and block column t / 8 mod 4 is written back once, at the last point
  of its run of eight (t mod 8 = 7). There the block is a copy of the accumulator, which holds zero plus the eight
  runs of the contraction for the block's rows and columns — the product's entries (`BlockSum.zero_add_runs`). The
  sixteen written-back blocks tile the 4096 × 4096 array: entry (r, q) is in the block written back at point
  32 (r / 1024) + 8 (q / 1024) + 7. So after the run the array is the product everywhere.
-/
import proofs.«131610_j6502580486270_1_alg».proof.Proof.Accum

noncomputable section

namespace Cert.KernelIdeal.Product

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.Blocks (left right)

variable (m : (ℓ : Loc nD τ sig) → Buf (Elt Ideal) ℓ) (ρ : Dev nD → PrngReg)

/-- The result array's contents: the product of the two argument arrays. -/
abbrev result (c : Dev nD) : Buf (Elt Ideal) ((c : Thread nD τ).loc main_v0) :=
  BlockSum.product (left m c) (right m c)

/-- What a written-back point writes is its block of the product. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have hN : t.val < 128 := lt_of_lt_of_eq t.isLt (show cfg0.N = 128 from N_0)
  rw [Value.flushed2, Accum.out_eq_scratch m c t h7]
  funext j
  show ((outsAt0 m c t.val t.isLt).2 j : EReal) = BlockSum.product (left m c) (right m c) (((cfg0.win 2).blk t).view.emb j)
  have hr : ((((cfg0.win 2).blk t).view.emb j) 0).val = 1024 * (t.val / 32) + (j 0).val := by
    show win0_2.index t (0 : Fin 2) * 1024 + 1 * (j 0).val = _
    rw [(Blocks.index_out t).1]; omega
  have hq : ((((cfg0.win 2).blk t).view.emb j) 1).val = 1024 * (t.val / 8 % 4) + (j 1).val := by
    show win0_2.index t (1 : Fin 2) * 1024 + 1 * (j 1).val = _
    rw [(Blocks.index_out t).2]; omega
  rw [Accum.scratch_after m c t j, h7, ← BlockSum.zero_add_runs (left m c) (right m c) _ _ _ hr hq]
  congr 1
  refine Finset.sum_congr rfl fun s hs => ?_
  have hs' : s < 8 := Finset.mem_range.mp hs
  unfold Accum.addend
  rw [show (8 * (t.val / 8) + s) / 32 = t.val / 32 by omega, show (8 * (t.val / 8) + s) / 8 % 4 = t.val / 8 % 4 by omega,
    show (8 * (t.val / 8) + s) % 8 = s by omega]

/-- An entry is in point `t`'s output block iff each coordinate is in the block's range. -/
theorem mem_blk (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the array is in some written-back block. -/
theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 128 := N_0
  let t : Fin cfg0.N := ⟨32 * ((i 0).val / 1024) + 8 * ((i 1).val / 1024) + 7, by rw [hN]; omega⟩
  have ht : t.val = 32 * ((i 0).val / 1024) + 8 * ((i 1).val / 1024) + 7 := rfl
  refine ⟨t, (flush0_2 t).mpr (by rw [ht]; omega), ?_⟩
  rw [mem_blk]
  intro a
  match a with
  | ⟨0, _⟩ =>
    show win0_2.index t (0 : Fin 2) * 1024 ≤ (i 0).val ∧ (i 0).val < win0_2.index t (0 : Fin 2) * 1024 + 1024
    rw [(Blocks.index_out t).1, ht]; omega
  | ⟨1, _⟩ =>
    show win0_2.index t (1 : Fin 2) * 1024 ≤ (i 1).val ∧ (i 1).val < win0_2.index t (1 : Fin 2) * 1024 + 1024
    rw [(Blocks.index_out t).2, ht]; omega

/-- After the run the result array is the product. -/
theorem final (c : Dev nD) : (dats m 0 c).arrAt 2 cfg0.N = result m c :=
  (dats m 0 c).arrAt_eq_of_cover 2 (result m c) (flushed_eq m c) cover

/-- The idealized kernel's run: it ends with the result array at the product and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Product

end
-- ==== Proof.RefValue.lean ====
/-
  The reference's result, at the ideal values, is the product of its two arguments entry by entry.

  The reference is one `dot_general` contracting the left argument's columns with the right argument's rows. Read at an
  index (r, q) it is the sum over the 4096 contraction positions k of left (r, k) · right (k, q): `BlockSum.product`.
-/
import proofs.«131610_j6502580486270_1_alg».proof.Proof.Gen.ReferenceIdeal.Read
import proofs.«131610_j6502580486270_1_alg».proof.Proof.BlockSum
import Idealize.ShloMosaic.Lib.ValueIdx

noncomputable section

namespace Cert.ReferenceIdeal.RefValue

open Cert.ReferenceIdeal Cert.ReferenceIdeal.Gen Idealize.ShloMosaic Idealize.ShloMosaic.TcCoe Idealize.ShloMosaic.ValueIdx

/-- The reference's one operation is the product. -/
theorem result_eq (x0 x1 : (⟨S4096x4096, .f32⟩ : BufTy).Contents (Elt Ideal)) :
    Read.val_main_v0 (F := Ideal) x0 x1 = BlockSum.product x0 x1 := by
  funext i
  rw [Read.val_main_v0_apply]
  unfold BlockSum.product
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 k (i 1) :=
    funext fun a => Fin.ext (by match a with | ⟨0, _⟩ => rfl | ⟨1, _⟩ => rfl)
  exact congrArg₂ (· * ·) (congrArg x0 el) (congrArg x1 er)

end Cert.ReferenceIdeal.RefValue

end
-- ==== Proof.lean ====
/-
  A 4096 × 4096 matrix product computed block by block against the whole product.

  The kernel tiles the output in 1024 × 1024 blocks and walks the contraction axis in eight blocks of 512: for each
  output block it zeroes an accumulator, adds the product of a 1024 × 512 block of the left operand with a 512 × 1024
  block of the right operand eight times, and writes the accumulator out after the eighth. The reference is one
  product of the whole operands. Over the extended reals both give, at entry (r, q), the sum over the 4096 contraction
  positions k of left (r, k) · right (k, q): the kernel's narrowing of its operands to bf16 is the identity there, and its sum —
  zero plus eight runs of 512 products, in order — is the same sum regrouped, addition of extended reals being
  commutative and associative. The precondition (finite inputs) is not used.

  The three programs run and keep their arguments: the two kernels by their frames, the reference by its run. The
  idealized kernel's text is the kernel's own (no operation rewritten), so there is nothing to preserve.
-/
import proofs.«131610_j6502580486270_1_alg».proof.Defs
import proofs.«131610_j6502580486270_1_alg».proof.Proof.Gen.Kernel
import proofs.«131610_j6502580486270_1_alg».proof.Proof.Gen.Kernel.Skeleton
import proofs.«131610_j6502580486270_1_alg».proof.Proof.Gen.Kernel.Launch
import proofs.«131610_j6502580486270_1_alg».proof.Proof.Gen.Kernel.Points
import proofs.«131610_j6502580486270_1_alg».proof.Proof.Gen.Kernel.Frame
import proofs.«131610_j6502580486270_1_alg».proof.Proof.Gen.KernelIdeal
import proofs.«131610_j6502580486270_1_alg».proof.Proof.Gen.KernelIdeal.Skeleton
import proofs.«131610_j6502580486270_1_alg».proof.Proof.Gen.KernelIdeal.Launch
import proofs.«131610_j6502580486270_1_alg».proof.Proof.Gen.KernelIdeal.Points
import proofs.«131610_j6502580486270_1_alg».proof.Proof.Gen.KernelIdeal.Frame
import proofs.«131610_j6502580486270_1_alg».proof.Proof.Gen.ReferenceIdeal
import proofs.«131610_j6502580486270_1_alg».proof.Proof.Gen.Pre_finite_inputs
import proofs.«131610_j6502580486270_1_alg».proof.Proof.Gen.KernelIdeal.Value
import proofs.«131610_j6502580486270_1_alg».proof.Proof.Gen.ReferenceIdeal.Run
import proofs.«131610_j6502580486270_1_alg».proof.Proof.Gen.ReferenceIdeal.Read
import proofs.«131610_j6502580486270_1_alg».proof.Proof.Product
import proofs.«131610_j6502580486270_1_alg».proof.Proof.RefValue
import Idealize.ShloMosaic.Adequacy
import Idealize.ShloMosaic.Init

noncomputable section

namespace Cert.Proof

open Idealize.ShloMosaic Idealize.SL.Sem

/-- The kernel runs and keeps its arguments. -/
theorem frame_kernel : Cert.frame_Kernel :=
  fun m ρ _ => Cert.Kernel.Gen.frame m ρ

/-- So does the idealized kernel. -/
theorem frame_kernel_ideal : Cert.frame_KernelIdeal :=
  fun m ρ _ => Cert.KernelIdeal.Gen.frame m ρ

/-- The reference runs and keeps its arguments: its run, with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- Both idealized programs end with the product of arguments that agree. -/
theorem algebraic : Cert.algebraic_KernelIdeal_ReferenceIdeal := by
  intro m ρ m' ρ' _ hagree
  refine ⟨fun c => Cert.KernelIdeal.Product.result m c, Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
